-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S100000x256 : Shape := ⟨2, ![100000, 256]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x256 .f32) (main_arg1 : FVec F S100000x256 .f32) (main_arg2 : FVec F S1024 .f32) (main_arg3 : IVec S1024 32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S1024x256 : Shape := ⟨2, ![1024, 256]⟩
abbrev S100000x256 : Shape := ⟨2, ![100000, 256]⟩
abbrev S1024 : Shape := ⟨1, ![1024]⟩
abbrev S_ : Shape := ⟨0, ![]⟩
abbrev S100352x256 : Shape := ⟨2, ![100352, 256]⟩
abbrev S1024x100352 : Shape := ⟨2, ![1024, 100352]⟩
abbrev S2048x256 : Shape := ⟨2, ![2048, 256]⟩
abbrev S1024x2048 : Shape := ⟨2, ![1024, 2048]⟩
abbrev S1024x100000 : Shape := ⟨2, ![1024, 100000]⟩

abbrev nBuf : Space → Nat
  | .hbm => 11
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S100000x256, .f32⟩
  | .hbm, ⟨2, _⟩ => ⟨S1024, .f32⟩
  | .hbm, ⟨3, _⟩ => ⟨S1024, .i32⟩
  | .hbm, ⟨4, _⟩ => ⟨S1024x256, .bf16⟩
  | .hbm, ⟨5, _⟩ => ⟨S100000x256, .bf16⟩
  | .hbm, ⟨6, _⟩ => ⟨S_, .i32⟩
  | .hbm, ⟨7, _⟩ => ⟨S_, .bf16⟩
  | .hbm, ⟨8, _⟩ => ⟨S100352x256, .bf16⟩
  | .hbm, ⟨9, _⟩ => ⟨S1024x100352, .f32⟩
  | .hbm, ⟨10, _⟩ => ⟨S1024x100000, .f32⟩
  | .local _ .vmem, ⟨0, _⟩ => ⟨S1024x256, .bf16⟩
  | .local _ .vmem, ⟨1, _⟩ => ⟨S2048x256, .bf16⟩
  | .local _ .vmem, ⟨2, _⟩ => ⟨S2048x256, .bf16⟩
  | .local _ .vmem, ⟨3, _⟩ => ⟨S1024x2048, .f32⟩
  | .local _ .vmem, ⟨4, _⟩ => ⟨S1024x2048, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  pads_S100000x256_S100352x256_03520_000 : S100000x256.Pads (![0, 0] : Fin 2 → Nat) ![352, 0] ![0, 0] S100352x256
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  slices_S1024x100352_S1024x100000_0_0 : S1024x100352.Slices ![0, 0] S1024x100000
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .bf16 = 32 ∨ (Rect.block (s := S1024x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S100352x256.size a
  hwx0_1 : ∀ i : grid0.Coords, EltTy.bits .bf16 = 32 ∨ (Rect.block (s := S100352x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x100352.size a
  hwx0_2 : ∀ i : grid0.Coords, EltTy.bits .f32 = 32 ∨ (Rect.block (s := S1024x100352) S1024x2048.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x256 : Shape := ⟨2, ![1024, 256]⟩
abbrev S100000x256 : Shape := ⟨2, ![100000, 256]⟩
abbrev S1024 : Shape := ⟨1, ![1024]⟩
abbrev S256x100000 : Shape := ⟨2, ![256, 100000]⟩
abbrev S1024x100000 : Shape := ⟨2, ![1024, 100000]⟩

abbrev nBuf : Space → Nat
  | .hbm => 6
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S100000x256, .f32⟩
  | .hbm, ⟨2, _⟩ => ⟨S1024, .f32⟩
  | .hbm, ⟨3, _⟩ => ⟨S1024, .i32⟩
  | .hbm, ⟨4, _⟩ => ⟨S256x100000, .f32⟩
  | .hbm, ⟨5, _⟩ => ⟨S1024x100000, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  transposes_S100000x256_S256x100000_1_0 : S100000x256.Transposes [1, 0] S256x100000
  dot_S1024x256_S256x100000_S1024x100000_1_0_0_1_n_n_wf : DotDims.WF S1024x256 S256x100000 S1024x100000 [1] [0] [0] [1] [] []

variable [Facts₀]

def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf

class Facts : Prop extends Facts₀ where

variable [Facts]
-- ==== Proof.TileProduct.lean ====
/-
  One tile of the product, entry by entry.

  At each grid point the body multiplies the resident [1024 × 256] block by a [2048 × 256] tile of the bank,
  contracting the second axis of both operands, into a zero accumulator. Over the extended reals entry (p, q)
  of the tile's result is the dot product of row p of the block with row q of the tile:
      ∑ k < 256, x (p, k) · y (q, k).
  The shape casts around the product change nothing, and the zero accumulator adds nothing.
-/
import proofs.«156646_j44504451121873_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-- The left operand's row is the result's row. -/
theorem lhs_row (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
/-- The left operand's column is the contraction position. -/
theorem lhs_col (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
/-- The right operand's row is the result's column: the tile is used transposed. -/
theorem rhs_row (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
/-- The right operand's column is the contraction position. -/
theorem rhs_col (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The product into a zero accumulator at entry (p, q): the dot of row p of the left with row q of the right. -/
theorem matmul_rows_apply (x : FVec Ideal S1024x256 .bf16) (y : FVec Ideal S2048x256 .bf16) (p : Fin 1024) (q : Fin 2048) :
    matmul dot_S1024x256_S2048x256_S1024x2048_1_1_0_0_n_n none x y (constant S1024x2048 .f32 0x00000000#32) (ix2 p q)
      = ∑ k : Fin 256, x (ix2 p k) * y (ix2 q k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q) ((contrEquiv1 dot_S1024x256_S2048x256_S1024x2048_1_1_0_0_n_n 256 rfl rfl).symm k) = ix2 p k := funext fun a => Fin.ext (by
    match a with
    | ⟨0, _⟩ => exact lhs_row _ _
    | ⟨1, _⟩ => exact (lhs_col _ _).trans hk)
  have er : dot_S1024x256_S2048x256_S1024x2048_1_1_0_0_n_n.rhsIdx (ix2 p q) ((contrEquiv1 dot_S1024x256_S2048x256_S1024x2048_1_1_0_0_n_n 256 rfl rfl).symm k) = ix2 q k := funext fun a => Fin.ext (by
    match a with
    | ⟨0, _⟩ => exact rhs_row _ _
    | ⟨1, _⟩ => exact (rhs_col _ _).trans hk)
  rw [el, er]

/-- What the body stores, at entry (p, q) of the tile: the dot of row p of the loaded block with row q of the
    loaded tile of the bank. -/
theorem pay_apply (x : Vec Ideal S1024x256 .bf16) (y : Vec Ideal S2048x256 .bf16) (p : Fin 1024) (q : Fin 2048) :
    k0_pay1 (F := Ideal) x y (ix2 p q) = ∑ k : Fin 256, x (ix2 p k) * y (ix2 q k) := by
  unfold k0_pay1
  rw [shapeCast_self, shapeCast_self]
  exact matmul_rows_apply x y p q

end Cert.KernelIdeal.Tile

end
-- ==== Proof.Entry.lean ====
/-
  The two arrays the product region finds.

  Before the region the program rounds both arguments to bf16, which over the extended reals changes nothing,
  and pads the bank with 352 rows of zeros at the bottom so that its 100352 rows split into 49 tiles of 2048.
  So the left array is the first argument, and row r of the padded bank is row r of the second argument
  whenever r < 100000. The rows below that are never seen in the result.
-/
import proofs.«156646_j44504451121873_1_alg».proof.Proof.Gen.KernelIdeal.Frame
import Idealize.ShloMosaic.Lib.StableHlo.Run
import Idealize.ShloMosaic.Lib.ValueIdx
import Idealize.ShloMosaic.Lib.KernelVsHost

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first argument, [1024 × 256]. -/
abbrev queries (c : Dev nD) : Vec Ideal S1024x256 .f32 := m ((c : Thread nD τ).loc main_arg0)
/-- The second argument, the bank, [100000 × 256]. -/
abbrev bank (c : Dev nD) : Vec Ideal S100000x256 .f32 := m ((c : Thread nD τ).loc main_arg1)
/-- The left array as the region finds it. -/
abbrev lhsArr (c : Dev nD) : Vec Ideal S1024x256 .bf16 := V m c main_v0
/-- The padded bank as the region finds it, [100352 × 256]. -/
abbrev rhsArr (c : Dev nD) : Vec Ideal S100352x256 .bf16 := V m c main_v2

/-- The left array is the first argument. -/
theorem lhsArr_eq (c : Dev nD) : lhsArr m c = queries m c := by
  show V m c main_v0 = _
  dsimp only [Gen.V, Gen.V0]
  simp only [Gen.hostOps0, Gen.hostOps0_1, List.flatten_cons, List.flatten_nil, List.append_nil, List.cons_append, List.nil_append]
  after_results
  rfl

/-- The padded bank is the bank with the converted integer zero below it. -/
theorem rhsArr_eq (c : Dev nD) : rhsArr m c
    = pad S100352x256 ![0, 0] ![352, 0] ![0, 0] (bank m c) (sitofp (F := Ideal) .bf16 (constantI S_ 32 0#32))
        pads_S100000x256_S100352x256_03520_000 h_S_ := by
  show V m c main_v2 = _
  dsimp only [Gen.V, Gen.V0]
  simp only [Gen.hostOps0, Gen.hostOps0_1, List.flatten_cons, List.flatten_nil, List.append_nil, List.cons_append, List.nil_append]
  after_results
  rfl

/-- Row r of the padded bank, for r < 100000, is row r of the bank. -/
theorem rhsArr_apply (c : Dev nD) (r : Fin 100352) (hr : r.val < 100000) (k : Fin 256) :
    rhsArr m c (ix2 r k) = bank m c (ix2 (⟨r.val, hr⟩ : Fin 100000) k) := by
  rw [rhsArr_eq]
  exact pad_apply_of_inside ![0, 0] ![352, 0] ![0, 0] (bank m c) _ pads_S100000x256_S100352x256_03520_000 h_S_
    (ix2 r k) (ix2 (⟨r.val, hr⟩ : Fin 100000) k) (fun a => match a with
      | ⟨0, _⟩ => by show r.val = 0 + r.val * (0 + 1); omega
      | ⟨1, _⟩ => by show k.val = 0 + k.val * (0 + 1); omega)

end Cert.KernelIdeal.Entry

end
-- ==== Proof.WholeProduct.lean ====
/-
  From tiles to the whole padded product.

  Grid point t multiplies the resident left block — the whole left array at every point — by rows
  2048·t … 2048·t + 2047 of the padded bank, and writes the result to columns 2048·t … 2048·t + 2047 of the
  [1024 × 100352] output. So what point t writes back is exactly block t of one whole-array function: entry (r, s)
  is the dot of row r of the left array with row s of the padded bank. The 49 column blocks tile the output
  (49 · 2048 = 100352; column s lies in block s / 2048), so after the region the output array is that function.
-/
import proofs.«156646_j44504451121873_1_alg».proof.Proof.TileProduct
import proofs.«156646_j44504451121873_1_alg».proof.Proof.Entry
import Idealize.ShloMosaic.Lib.Pipeline.Value

set_option maxRecDepth 16384

noncomputable section

namespace Cert.KernelIdeal.Whole

open Cert.KernelIdeal Cert.KernelIdeal.Gen Cert.KernelIdeal.Entry Idealize.ShloMosaic Idealize.ShloMosaic.TcCoe Idealize.SL.Sem
open Idealize.ShloMosaic.ValueIdx
open Idealize.ShloMosaic.Pipeline (Dat Cfg Window)

/-- Every row of the left array against every row of the padded bank: entry (r, s) is ∑ k, A (r, k) · B (s, k). -/
def rowDots (A : Vec Ideal S1024x256 .bf16) (B : Vec Ideal S100352x256 .bf16) : Vec Ideal S1024x100352 .f32 :=
  fun i => ∑ k : Fin 256, A (ix2 (⟨(i 0).val, idx2_lt0 i⟩ : Fin 1024) k) * B (ix2 (⟨(i 1).val, idx2_lt1 i⟩ : Fin 100352) k)

/-- One tile's entry is the whole product's entry: if the loaded block x is the left array, the loaded tile y is
    rows 2048·n … of the padded bank, and the array index i sits at row p, column 2048·n + q, then entry (p, q) of
    what the body stores is entry i of the whole product. -/
theorem tile_entry (A : Vec Ideal S1024x256 .bf16) (B : Vec Ideal S100352x256 .bf16)
    (x : Vec Ideal S1024x256 .bf16) (y : Vec Ideal S2048x256 .bf16) (n : ℕ) (hn : n < 49)
    (hx : ∀ (p : Fin 1024) (k : Fin 256), x (ix2 p k) = A (ix2 p k))
    (hy : ∀ (q : Fin 2048) (k : Fin 256), y (ix2 q k) = B (ix2 (⟨n * 2048 + q.val, by have := q.isLt; omega⟩ : Fin 100352) k))
    (p : Fin 1024) (q : Fin 2048) (i : S1024x100352.Idx) (hi0 : (i 0).val = p.val) (hi1 : (i 1).val = n * 2048 + q.val) :
    k0_pay1 (F := Ideal) x y (ix2 p q) = rowDots A B i := by
  rw [Tile.pay_apply]
  unfold rowDots
  refine Finset.sum_congr rfl fun k _ => ?_
  rw [hx, hy]
  have e0 : (⟨(i 0).val, idx2_lt0 i⟩ : Fin 1024) = p := Fin.ext hi0
  have e1 : (⟨(i 1).val, idx2_lt1 i⟩ : Fin 100352) = ⟨n * 2048 + q.val, by have := q.isLt; omega⟩ := Fin.ext hi1
  rw [e0, e1]

variable (m : (ℓ : Loc nD τ sig) → Buf (Elt Ideal) ℓ)

theorem origin : (![0, 0] : Fin 2 → Nat) = fun _ => 0 := funext fun a => by fin_cases a <;> rfl

/-- Where the blocks sit, decided over the 49 points: the left block never moves, the bank's tile moves down one tile
    a point, the output's block moves right one block a point. -/
theorem block_indices : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val ∧ t.val < 49 :=
  (by decide +kernel : ∀ t : Fin grid0.N, _)

/-- Every column block is some point's. -/
theorem block_onto : ∀ b : Fin 49, ∃ t : Fin cfg0.N, win0_2.index t = ![0, b.val] :=
  (by decide +kernel : ∀ b : Fin 49, ∃ t : Fin grid0.N, win0_2.index t = ![0, b.val])

/-- What point t writes back is block t of the whole product of the arrays the region finds. -/
theorem flushed_eq (c : Dev nD) (t : Fin cfg0.N) :
    (dats m 0 c).flushed 2 t = ((cfg0.win 2).blk t).view.read (Elt Ideal) (rowDots (lhsArr m c) (rhsArr m c)) := by
  show (cfg0.win 2).cut (grid0.coords t) ((dats m 0 c).after 2 t) = _
  rw [after0_2]
  unfold out0_2
  rw [View.canon_unit_zero origin]
  simp only [View.ld_unit_zero (S := S1024x256) origin, View.ld_unit_zero (S := S2048x256) origin]
  obtain ⟨a0, a1, b0, b1, o0, o1, ht⟩ := block_indices t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
    = rowDots (lhsArr m c) (rhsArr m c) (((cfg0.win 2).blk t).view.emb (ix2 p q))
  refine tile_entry (lhsArr m c) (rhsArr m c) (iblk m c 0 t) (iblk m c 1 t) t.val ht ?_ ?_ p q _ ?_ ?_
  · intro p' k
    show V m c main_v0 (((cfg0.win 0).blk t).view.emb (ix2 p' k)) = V m c main_v0 (ix2 p' k)
    refine congrArg _ (funext fun a => Fin.ext ?_)
    match a with
    | ⟨0, _⟩ => show win0_0.index t (0 : Fin 2) * 1024 + 1 * p'.val = p'.val; omega
    | ⟨1, _⟩ => show win0_0.index t (1 : Fin 2) * 256 + 1 * k.val = k.val; omega
  · intro q' k
    show V m c main_v2 (((cfg0.win 1).blk t).view.emb (ix2 q' k)) = V m c main_v2 (ix2 (⟨t.val * 2048 + q'.val, _⟩ : Fin 100352) k)
    refine congrArg _ (funext fun a => Fin.ext ?_)
    match a with
    | ⟨0, _⟩ => show win0_1.index t (0 : Fin 2) * 2048 + 1 * q'.val = t.val * 2048 + q'.val; omega
    | ⟨1, _⟩ => show win0_1.index t (1 : Fin 2) * 256 + 1 * k.val = k.val; omega
  · show win0_2.index t (0 : Fin 2) * 1024 + 1 * p.val = p.val; omega
  · show win0_2.index t (1 : Fin 2) * 2048 + 1 * q.val = t.val * 2048 + q.val; omega

/-- An index of the output is in point t's block iff each coordinate is in the block's range on its axis. -/
theorem mem_blk (t : Fin cfg0.N) (i : S1024x100352.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v3).slice (win0_2.rect t)).set ↔ _
  rw [View.set_slice_whole, Rect.mem_set_unit]
  exact Iff.rfl

/-- The column blocks tile the output: column s is in block s / 2048. -/
theorem covered (i : S1024x100352.Idx) :
    ∃ t : Fin cfg0.N, (cfg0.win 2).flush t = true ∧ i ∈ ((cfg0.win 2).blk t).view.set := by
  have hi0 : (i 0).val < 1024 := idx2_lt0 i
  have hi1 : (i 1).val < 100352 := idx2_lt1 i
  obtain ⟨t, ht⟩ := block_onto ⟨(i 1).val / 2048, by omega⟩
  have q0 : win0_2.index t (0 : Fin 2) = 0 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- After the region the output array is the whole product of the arrays the region found. -/
theorem arr_eq (c : Dev nD) : (dats m 0 c).arrAt 2 cfg0.N = rowDots (lhsArr m c) (rhsArr m c) :=
  (dats m 0 c).arrAt_eq_of_cover 2 (rowDots (lhsArr m c) (rhsArr m c)) (fun t _ => flushed_eq m c t) covered

end Cert.KernelIdeal.Whole

end
-- ==== Proof.Logits.lean ====
/-
  The specification: the logits of every query against every row of the bank.

  For queries x of shape [1024 × 256] and a bank b of shape [100000 × 256], entry (r, s) of the result is the
  dot product of query r with bank row s,
      logits x b (r, s) = ∑ k < 256, x (r, k) · b (s, k),
  a finite sum of products of extended reals. Both programs compute exactly this sum, term for term, so no law
  beyond reading each operation at an index is needed, and finiteness of the inputs is never used.
-/
import Idealize.ShloMosaic.PureOps.Ideal
import Idealize.ShloMosaic.Lib.ValueIdx

noncomputable section

namespace Cert.Logits

open Idealize.ShloMosaic Idealize.ShloMosaic.ValueIdx

/-- Entry (r, s): the dot product of row r of x with row s of b. -/
def logits (x : (⟨2, ![1024, 256]⟩ : Shape).Idx → EReal) (b : (⟨2, ![100000, 256]⟩ : Shape).Idx → EReal) :
    (⟨2, ![1024, 100000]⟩ : Shape).Idx → EReal :=
  fun i => ∑ k : Fin 256, x (ix2 (⟨(i 0).val, idx2_lt0 i⟩ : Fin 1024) k) * b (ix2 (⟨(i 1).val, idx2_lt1 i⟩ : Fin 100000) k)

end Cert.Logits

end
-- ==== Proof.Result.lean ====
/-
  The kernel's result is the logits.

  After the region the program keeps columns 0 … 99999 of the [1024 × 100352] product. Entry (r, s) of the result,
  s < 100000, is therefore the dot of row r of the left array — the queries — with row s of the padded bank, and
  for s < 100000 that row is row s of the bank itself. The 352 rows of padding only ever meet columns
  100000 … 100351, which the slice drops.
-/
import proofs.«156646_j44504451121873_1_alg».proof.Proof.WholeProduct
import proofs.«156646_j44504451121873_1_alg».proof.Proof.Logits
import Idealize.ShloMosaic.Lib.StableHlo.Run

set_option maxRecDepth 16384

noncomputable section

namespace Cert.KernelIdeal.Result

open Cert.KernelIdeal Cert.KernelIdeal.Gen Cert.KernelIdeal.Entry Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- What the slice after the region leaves in the result buffer: the logits of the two float arguments. -/
theorem result_eq (c : Dev nD) :
    Pipeline.afterTail₀ cfgs (dats m) 0 (V0 m) [hostOps1] c main_v4 = Cert.Logits.logits (queries m c) (bank m c) := by
  unfold Pipeline.afterTail₀
  show StableHlo.after hostOps1 _ (Proc.devRef .tc main_v4) = _
  after_results
  have harr : Pipeline.withArrays (cfgs 0).spec c (V0 m c) (fun w => (dats m 0 c).arrAt w (cfgs 0).N) (Proc.devRef .tc main_v3)
      = Whole.rowDots (lhsArr m c) (rhsArr m c) :=
    (Pipeline.withArrays_arr spec0 launch0.win.arr_inj c _ _ 2).trans (Whole.arr_eq m c)
  rw [harr]
  funext i
  have hi0 : (i 0).val < 1024 := idx2_lt0 i
  have hi1 : (i 1).val < 100000 := idx2_lt1 i
  have hi1' : (i 1).val < 100352 := by omega
  refine (extractStridedSlice_apply ![0, 0] _ slices_S1024x100352_S1024x100000_0_0 i
    (ix2 (⟨(i 0).val, hi0⟩ : Fin 1024) (⟨(i 1).val, hi1'⟩ : Fin 100352)) (fun a => match a with
      | ⟨0, _⟩ => by show (i 0).val = 0 + (i 0).val; omega
      | ⟨1, _⟩ => by show (i 1).val = 0 + (i 1).val; omega)).trans ?_
  unfold Whole.rowDots Cert.Logits.logits
  refine Finset.sum_congr rfl fun k _ => ?_
  show lhsArr m c (ix2 (⟨(i 0).val, hi0⟩ : Fin 1024) k) * rhsArr m c (ix2 (⟨(i 1).val, hi1'⟩ : Fin 100352) k)
    = queries m c (ix2 (⟨(i 0).val, hi0⟩ : Fin 1024) k) * bank m c (ix2 (⟨(i 1).val, hi1⟩ : Fin 100000) k)
  rw [lhsArr_eq, rhsArr_apply m c ⟨(i 1).val, hi1'⟩ hi1 k]

/-- Every weakly fair execution of the idealized kernel ends with the result buffer at the logits of its two float
    arguments, and every argument as it was. -/
theorem run : θ_run defs (onTc (τ := τ) (main (F := Ideal))) ⟨m, fun _ => 0, ρ⟩ (fun r => ∀ c : Dev nD,
      r.2.mem ((c.tc : Thread nD τ).loc main_v4) = Cert.Logits.logits (queries m c) (bank m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefLogits.lean ====
/-
  The reference computes the logits.

  The reference transposes the bank to [256 × 100000] and takes the plain matrix product with the queries.
  Entry (r, s) of that product is ∑ k, x (r, k) · bᵀ (k, s), and bᵀ (k, s) = b (s, k): the dot product of query r
  with bank row s.
-/
import proofs.«156646_j44504451121873_1_alg».proof.Proof.Gen.ReferenceIdeal.Read
import proofs.«156646_j44504451121873_1_alg».proof.Proof.Logits

noncomputable section

namespace Cert.ReferenceIdeal.RefValue

open Cert.ReferenceIdeal Cert.ReferenceIdeal.Gen Idealize.ShloMosaic Idealize.ShloMosaic.ValueIdx

/-- The reference's result, as a function of its two float arguments, is the logits. -/
theorem ref_eq (x : Vec Ideal S1024x256 .f32) (b : Vec Ideal S100000x256 .f32) :
    Read.val_main_v1 (F := Ideal) x b = Cert.Logits.logits x b := by
  funext i
  rw [Read.val_main_v1_apply]
  unfold Cert.Logits.logits
  refine Finset.sum_congr rfl fun k _ => ?_
  rw [Read.val_main_v0_apply]
  have el : Read.lidx_main_v1 i k = ix2 (⟨(i 0).val, idx2_lt0 i⟩ : Fin 1024) k :=
    funext fun a => Fin.ext (by match a with | ⟨0, _⟩ => rfl | ⟨1, _⟩ => rfl)
  have er : Read.idx_main_v0 (Read.ridx_main_v1 i k) = ix2 (⟨(i 1).val, idx2_lt1 i⟩ : Fin 100000) k :=
    funext fun a => Fin.ext (by match a with | ⟨0, _⟩ => rfl | ⟨1, _⟩ => rfl)
  rw [el, er]

end Cert.ReferenceIdeal.RefValue

end
-- ==== Proof.lean ====
/-
  Logits of 1024 queries against a bank of 100000 rows: the tiled kernel against the plain matrix product.

  The kernel rounds both arguments to bf16 (the identity over the extended reals), pads the bank with 352 zero rows
  to 100352 = 49 · 2048 rows, and at each of 49 grid points multiplies the whole [1024 × 256] query block by one
  [2048 × 256] tile of the padded bank, contracting the second axis of both, into columns 2048·t … 2048·t + 2047 of
  a [1024 × 100352] array; it then keeps columns 0 … 99999. The reference transposes the bank and takes one plain
  [1024 × 256] · [256 × 100000] product.

  Over the extended reals both results are, entry by entry, the same finite sum
      (r, s) ↦ ∑ k < 256, x (r, k) · b (s, k)   (Proof/Logits.lean):
  the kernel's tile entry is that sum over the loaded rows (Proof/TileProduct.lean), the tiles are the blocks of one
  whole product over the padded bank and cover it (Proof/WholeProduct.lean), rows below 100000 of the padded bank
  are the bank's own (Proof/Entry.lean) and the padding meets only the dropped columns (Proof/Result.lean); the
  reference's product over the transposed bank is the same sum (Proof/RefLogits.lean). The terms agree one by one,
  so no algebraic law is used and the finiteness of the inputs is never needed.

  The three frames are the generated ones (the reference's is its run with the result dropped); the idealization
  rewrote nothing, so the preservation claim is trivial.
-/
import proofs.«156646_j44504451121873_1_alg».proof.Defs
import proofs.«156646_j44504451121873_1_alg».proof.Proof.Gen.Kernel
import proofs.«156646_j44504451121873_1_alg».proof.Proof.Gen.Kernel.Skeleton
import proofs.«156646_j44504451121873_1_alg».proof.Proof.Gen.Kernel.Launch
import proofs.«156646_j44504451121873_1_alg».proof.Proof.Gen.Kernel.Points
import proofs.«156646_j44504451121873_1_alg».proof.Proof.Gen.Kernel.Frame
import proofs.«156646_j44504451121873_1_alg».proof.Proof.Gen.KernelIdeal
import proofs.«156646_j44504451121873_1_alg».proof.Proof.Gen.KernelIdeal.Skeleton
import proofs.«156646_j44504451121873_1_alg».proof.Proof.Gen.KernelIdeal.Launch
import proofs.«156646_j44504451121873_1_alg».proof.Proof.Gen.KernelIdeal.Points
import proofs.«156646_j44504451121873_1_alg».proof.Proof.Gen.KernelIdeal.Frame
import proofs.«156646_j44504451121873_1_alg».proof.Proof.Gen.ReferenceIdeal
import proofs.«156646_j44504451121873_1_alg».proof.Proof.Gen.ReferenceIdeal.Run
import proofs.«156646_j44504451121873_1_alg».proof.Proof.Gen.ReferenceIdeal.Read
import proofs.«156646_j44504451121873_1_alg».proof.Proof.Gen.Pre_finite_inputs
import proofs.«156646_j44504451121873_1_alg».proof.Proof.Result
import proofs.«156646_j44504451121873_1_alg».proof.Proof.RefLogits
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the logits of the two float arguments in their
    result buffers: the kernel by its run read through the tiles, the reference by its product over the transposed
    bank read at an entry. -/
theorem algebraic : Cert.algebraic_KernelIdeal_ReferenceIdeal := by
  intro m ρ m' ρ' _ hagree
  refine ⟨fun c => Cert.Logits.logits (Cert.KernelIdeal.Entry.queries m c) (Cert.KernelIdeal.Entry.bank m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
